-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x256x256 : Shape := ⟨4, ![16, 64, 256, 256]⟩
abbrev S512x256 : Shape := ⟨2, ![512, 256]⟩
abbrev S512 : Shape := ⟨1, ![512]⟩
abbrev S128x512 : Shape := ⟨2, ![128, 512]⟩
abbrev S128 : Shape := ⟨1, ![128]⟩
abbrev S_ : Shape := ⟨0, ![]⟩

class Facts : Prop where
  bcast_S_S16x64x256x256 : S_.BroadcastsInDim S16x64x256x256 (![] : Fin 0 → Fin S16x64x256x256.rank)
  reducesTo_S16x64x256x256_S_d0_1_2_3 : S16x64x256x256.ReducesTo [0, 1, 2, 3] S_
  h_S_ : 0 < S_.numel
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x512 1) : IVec S_ 1 :=
  let main_c_5 : IVec S_ 1 := constantI S_ 1 1#1
  let main_v17 : IVec S_ 1 := (fun x v => Host.reduce IntOp.andi x v reducesTo_S128x512_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S16x64x256x256 .f32) (main_arg1 : FVec F S512x256 .f32) (main_arg2 : FVec F S512 .f32) (main_arg3 : FVec F S128x512 .f32) (main_arg4 : FVec F S128 .f32) : IVec S_ 1 :=
  let main_v0 : FVec F S16x64x256x256 .f32 := Host.absf main_arg0
  let main_cst : FVec F S_ .f32 := constant S_ .f32 0x7F800000#32
  let main_v1 : FVec F S16x64x256x256 .f32 := broadcastInDim S16x64x256x256 ![] bcast_S_S16x64x256x256 main_cst
  let main_v2 : IVec S16x64x256x256 1 := cmpf .olt main_v0 main_v1
  let main_c : IVec S_ 1 := constantI S_ 1 1#1
  let main_v3 : IVec S_ 1 := (fun x v => Host.reduce IntOp.andi x v reducesTo_S16x64x256x256_S_d0_1_2_3 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S128x512 .f32 := Host.absf main_arg3
  let main_cst_4 : FVec F S_ .f32 := constant S_ .f32 0x7F800000#32
  let main_v15 : FVec F S128x512 .f32 := broadcastInDim S128x512 ![] bcast_S_S128x512 main_cst_4
  let main_v16 : IVec S128x512 1 := cmpf .olt main_v14 main_v15
  fn_part1 (F := F) main_arg4 main_v13 main_v16
-- ==== Kernel.lean ====
abbrev S16x64x256x256 : Shape := ⟨4, ![16, 64, 256, 256]⟩
abbrev S512x256 : Shape := ⟨2, ![512, 256]⟩
abbrev S512 : Shape := ⟨1, ![512]⟩
abbrev S128x512 : Shape := ⟨2, ![128, 512]⟩
abbrev S128 : Shape := ⟨1, ![128]⟩
abbrev S16x64x128x2x128x2 : Shape := ⟨6, ![16, 64, 128, 2, 128, 2]⟩
abbrev S16x128x128x64x2x2 : Shape := ⟨6, ![16, 128, 128, 64, 2, 2]⟩
abbrev S262144x256 : Shape := ⟨2, ![262144, 256]⟩
abbrev S_ : Shape := ⟨0, ![]⟩
abbrev S16x64x128x128 : Shape := ⟨4, ![16, 64, 128, 128]⟩
abbrev S16x64x2x128x128 : Shape := ⟨5, ![16, 64, 2, 128, 128]⟩
abbrev S16x128x128x128 : Shape := ⟨4, ![16, 128, 128, 128]⟩
abbrev S256x512 : Shape := ⟨2, ![256, 512]⟩
abbrev S512x128 : Shape := ⟨2, ![512, 128]⟩
abbrev S262144x128 : Shape := ⟨2, ![262144, 128]⟩
abbrev S4096x256 : Shape := ⟨2, ![4096, 256]⟩
abbrev S4096x128 : Shape := ⟨2, ![4096, 128]⟩
abbrev S4096x512 : Shape := ⟨2, ![4096, 512]⟩
abbrev S1x512 : Shape := ⟨2, ![1, 512]⟩
abbrev S1x128 : Shape := ⟨2, ![1, 128]⟩

abbrev nBuf : Space → Nat
  | .hbm => 23
  | .vmem => 8
  | .smem => 0
  | _ => 0

abbrev bufTy : (tb : Table) → Fin (tcTables nBuf tb) → BufTy
  | .hbm, ⟨0, _⟩ => ⟨S16x64x256x256, .f32⟩
  | .hbm, ⟨1, _⟩ => ⟨S512x256, .f32⟩
  | .hbm, ⟨2, _⟩ => ⟨S512, .f32⟩
  | .hbm, ⟨3, _⟩ => ⟨S128x512, .f32⟩
  | .hbm, ⟨4, _⟩ => ⟨S128, .f32⟩
  | .hbm, ⟨5, _⟩ => ⟨S16x64x128x2x128x2, .f32⟩
  | .hbm, ⟨6, _⟩ => ⟨S16x128x128x64x2x2, .f32⟩
  | .hbm, ⟨7, _⟩ => ⟨S262144x256, .f32⟩
  | .hbm, ⟨8, _⟩ => ⟨S_, .f32⟩
  | .hbm, ⟨9, _⟩ => ⟨S16x64x128x128, .f32⟩
  | .hbm, ⟨10, _⟩ => ⟨S_, .f32⟩
  | .hbm, ⟨11, _⟩ => ⟨S16x64x128x128, .f32⟩
  | .hbm, ⟨12, _⟩ => ⟨S16x64x128x128, .f32⟩
  | .hbm, ⟨13, _⟩ => ⟨S16x64x2x128x128, .f32⟩
  | .hbm, ⟨14, _⟩ => ⟨S16x128x128x128, .f32⟩
  | .hbm, ⟨15, _⟩ => ⟨S256x512, .f32⟩
  | .hbm, ⟨16, _⟩ => ⟨S256x512, .bf16⟩
  | .hbm, ⟨17, _⟩ => ⟨S512x128, .f32⟩
  | .hbm, ⟨18, _⟩ => ⟨S512x128, .bf16⟩
  | .hbm, ⟨19, _⟩ => ⟨S262144x128, .f32⟩
  | .hbm, ⟨20, _⟩ => ⟨S16x128x128x128, .f32⟩
  | .hbm, ⟨21, _⟩ => ⟨S16x128x128x128, .f32⟩
  | .hbm, ⟨22, _⟩ => ⟨S16x128x128x128, .f32⟩
  | .local _ .vmem, ⟨0, _⟩ => ⟨S4096x256, .f32⟩
  | .local _ .vmem, ⟨1, _⟩ => ⟨S4096x256, .f32⟩
  | .local _ .vmem, ⟨2, _⟩ => ⟨S256x512, .bf16⟩
  | .local _ .vmem, ⟨3, _⟩ => ⟨S512, .f32⟩
  | .local _ .vmem, ⟨4, _⟩ => ⟨S512x128, .bf16⟩
  | .local _ .vmem, ⟨5, _⟩ => ⟨S128, .f32⟩
  | .local _ .vmem, ⟨6, _⟩ => ⟨S4096x128, .f32⟩
  | .local _ .vmem, ⟨7, _⟩ => ⟨S4096x128, .f32⟩
  | _, _ => ⟨S16x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S16x64x256x256_S16x64x128x2x128x2 : S16x64x256x256.ShapeCasts S16x64x128x2x128x2
  transposes_S16x64x128x2x128x2_S16x128x128x64x2x2_0_2_4_1_3_5 : S16x64x128x2x128x2.Transposes [0, 2, 4, 1, 3, 5] S16x128x128x64x2x2
  shapeCasts_S16x128x128x64x2x2_S262144x256 : S16x128x128x64x2x2.ShapeCasts S262144x256
  reducesTo_S16x64x128x2x128x2_S16x64x128x128_d3_5 : S16x64x128x2x128x2.ReducesTo [3, 5] S16x64x128x128
  h_S_ : 0 < S_.numel
  bcast_S_S16x64x128x128 : S_.BroadcastsInDim S16x64x128x128 (![] : Fin 0 → Fin S16x64x128x128.rank)
  bcast_S16x64x128x128_S16x64x2x128x128_0_1_3_4 : S16x64x128x128.BroadcastsInDim S16x64x2x128x128 (![0, 1, 3, 4] : Fin 4 → Fin S16x64x2x128x128.rank)
  shapeCasts_S16x64x2x128x128_S16x128x128x128 : S16x64x2x128x128.ShapeCasts S16x128x128x128
  transposes_S512x256_S256x512_1_0 : S512x256.Transposes [1, 0] S256x512
  bitsLt_bf16_f32 : FTy.bits .bf16 < FTy.bits .f32
  transposes_S128x512_S512x128_1_0 : S128x512.Transposes [1, 0] S512x128
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512_S512_0 : ∀ a, (![0] : Fin 1 → Nat) a + S512.size a ≤ S512.size a
  h_S512 : 0 < S512.numel
  shapeCasts_S512_S1x512 : S512.ShapeCasts S1x512
  broadcasts_S1x512_S4096x512 : S1x512.Broadcasts S4096x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128_S128_0 : ∀ a, (![0] : Fin 1 → Nat) a + S128.size a ≤ S128.size a
  h_S128 : 0 < S128.numel
  shapeCasts_S128_S1x128 : S128.ShapeCasts S1x128
  broadcasts_S1x128_S4096x128 : S1x128.Broadcasts S4096x128
  inb_S4096x128_S4096x128_0_0 : ∀ a, (![0, 0] : Fin 2 → Nat) a + S4096x128.size a ≤ S4096x128.size a
  h_S4096x128 : 0 < S4096x128.numel
  shapeCasts_S262144x128_S16x128x128x128 : S262144x128.ShapeCasts S16x128x128x128
  transposes_S16x128x128x128_S16x128x128x128_0_3_1_2 : S16x128x128x128.Transposes [0, 3, 1, 2] S16x128x128x128
  dot_S4096x256_S256x512_S4096x512_1_0_0_1_n_n_wf : DotDims.WF S4096x256 S256x512 S4096x512 [1] [0] [0] [1] [] []
  dot_S4096x512_S512x128_S4096x128_1_0_0_1_n_n_wf : DotDims.WF S4096x512 S512x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S262144x256.size a
  hwx0_0 : ∀ i : grid0.Coords, EltTy.bits .f32 = 32 ∨ (Rect.block (s := S262144x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .bf16 = 32 ∨ (Rect.block (s := S256x512) S256x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S512x128.size a
  hwx0_3 : ∀ i : grid0.Coords, EltTy.bits .bf16 = 32 ∨ (Rect.block (s := S512x128) S512x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x128.size a ≤ S262144x128.size a
  hwx0_5 : ∀ i : grid0.Coords, EltTy.bits .f32 = 32 ∨ (Rect.block (s := S262144x128) S4096x128.size (cc0_transform_5 i) (hinb0_5 i)).WholeWords (EltTy.packing .f32)

variable [Facts₀]

def dot_S4096x256_S256x512_S4096x512_1_0_0_1_n_n : DotDims S4096x256 S256x512 S4096x512 where
  lhsContracting := [1]
  rhsContracting := [0]
  lhsNonContracting := [0]
  rhsNonContracting := [1]
  lhsBatch := []
  rhsBatch := []
  wf := dot_S4096x256_S256x512_S4096x512_1_0_0_1_n_n_wf
def dot_S4096x512_S512x128_S4096x128_1_0_0_1_n_n : DotDims S4096x512 S512x128 S4096x128 where
  lhsContracting := [1]
  rhsContracting := [0]
  lhsNonContracting := [0]
  rhsNonContracting := [1]
  lhsBatch := []
  rhsBatch := []
  wf := dot_S4096x512_S512x128_S4096x128_1_0_0_1_n_n_wf

abbrev win0_0 : Pipeline.Window sig grid0 :=
  Pipeline.Window.ofSpec (Memref.whole main_v2) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S512x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S4096x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x64x256x256 : Shape := ⟨4, ![16, 64, 256, 256]⟩
abbrev S512x256 : Shape := ⟨2, ![512, 256]⟩
abbrev S512 : Shape := ⟨1, ![512]⟩
abbrev S128x512 : Shape := ⟨2, ![128, 512]⟩
abbrev S128 : Shape := ⟨1, ![128]⟩
abbrev S16x64x128x2x128x2 : Shape := ⟨6, ![16, 64, 128, 2, 128, 2]⟩
abbrev S16x128x128x64x2x2 : Shape := ⟨6, ![16, 128, 128, 64, 2, 2]⟩
abbrev S262144x256 : Shape := ⟨2, ![262144, 256]⟩
abbrev S256x512 : Shape := ⟨2, ![256, 512]⟩
abbrev S262144x512 : Shape := ⟨2, ![262144, 512]⟩
abbrev S1x512 : Shape := ⟨2, ![1, 512]⟩
abbrev S_ : Shape := ⟨0, ![]⟩
abbrev S512x128 : Shape := ⟨2, ![512, 128]⟩
abbrev S262144x128 : Shape := ⟨2, ![262144, 128]⟩
abbrev S1x128 : Shape := ⟨2, ![1, 128]⟩
abbrev S16x128x128x128 : Shape := ⟨4, ![16, 128, 128, 128]⟩
abbrev S16x64x128x128 : Shape := ⟨4, ![16, 64, 128, 128]⟩
abbrev S16x64x2x128x128 : Shape := ⟨5, ![16, 64, 2, 128, 128]⟩

abbrev nBuf : Space → Nat
  | .hbm => 38
  | .vmem => 0
  | .smem => 0
  | _ => 0

abbrev bufTy : (tb : Table) → Fin (tcTables nBuf tb) → BufTy
  | .hbm, ⟨0, _⟩ => ⟨S16x64x256x256, .f32⟩
  | .hbm, ⟨1, _⟩ => ⟨S512x256, .f32⟩
  | .hbm, ⟨2, _⟩ => ⟨S512, .f32⟩
  | .hbm, ⟨3, _⟩ => ⟨S128x512, .f32⟩
  | .hbm, ⟨4, _⟩ => ⟨S128, .f32⟩
  | .hbm, ⟨5, _⟩ => ⟨S16x64x128x2x128x2, .f32⟩
  | .hbm, ⟨6, _⟩ => ⟨S16x128x128x64x2x2, .f32⟩
  | .hbm, ⟨7, _⟩ => ⟨S262144x256, .f32⟩
  | .hbm, ⟨8, _⟩ => ⟨S256x512, .f32⟩
  | .hbm, ⟨9, _⟩ => ⟨S262144x512, .f32⟩
  | .hbm, ⟨10, _⟩ => ⟨S1x512, .f32⟩
  | .hbm, ⟨11, _⟩ => ⟨S262144x512, .f32⟩
  | .hbm, ⟨12, _⟩ => ⟨S262144x512, .f32⟩
  | .hbm, ⟨13, _⟩ => ⟨S262144x512, .f32⟩
  | .hbm, ⟨14, _⟩ => ⟨S262144x512, .f32⟩
  | .hbm, ⟨15, _⟩ => ⟨S_, .f32⟩
  | .hbm, ⟨16, _⟩ => ⟨S262144x512, .f32⟩
  | .hbm, ⟨17, _⟩ => ⟨S262144x512, .f32⟩
  | .hbm, ⟨18, _⟩ => ⟨S_, .f32⟩
  | .hbm, ⟨19, _⟩ => ⟨S262144x512, .f32⟩
  | .hbm, ⟨20, _⟩ => ⟨S262144x512, .f32⟩
  | .hbm, ⟨21, _⟩ => ⟨S262144x512, .f32⟩
  | .hbm, ⟨22, _⟩ => ⟨S512x128, .f32⟩
  | .hbm, ⟨23, _⟩ => ⟨S262144x128, .f32⟩
  | .hbm, ⟨24, _⟩ => ⟨S1x128, .f32⟩
  | .hbm, ⟨25, _⟩ => ⟨S262144x128, .f32⟩
  | .hbm, ⟨26, _⟩ => ⟨S262144x128, .f32⟩
  | .hbm, ⟨27, _⟩ => ⟨S16x128x128x128, .f32⟩
  | .hbm, ⟨28, _⟩ => ⟨S16x128x128x128, .f32⟩
  | .hbm, ⟨29, _⟩ => ⟨S16x64x128x2x128x2, .f32⟩
  | .hbm, ⟨30, _⟩ => ⟨S_, .f32⟩
  | .hbm, ⟨31, _⟩ => ⟨S16x64x128x128, .f32⟩
  | .hbm, ⟨32, _⟩ => ⟨S_, .f32⟩
  | .hbm, ⟨33, _⟩ => ⟨S16x64x128x128, .f32⟩
  | .hbm, ⟨34, _⟩ => ⟨S16x64x128x128, .f32⟩
  | .hbm, ⟨35, _⟩ => ⟨S16x64x2x128x128, .f32⟩
  | .hbm, ⟨36, _⟩ => ⟨S16x128x128x128, .f32⟩
  | .hbm, ⟨37, _⟩ => ⟨S16x128x128x128, .f32⟩
  | _, _ => ⟨S16x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]

class Facts₀ : Prop where
  shapeCasts_S16x64x256x256_S16x64x128x2x128x2 : S16x64x256x256.ShapeCasts S16x64x128x2x128x2
  transposes_S16x64x128x2x128x2_S16x128x128x64x2x2_0_2_4_1_3_5 : S16x64x128x2x128x2.Transposes [0, 2, 4, 1, 3, 5] S16x128x128x64x2x2
  shapeCasts_S16x128x128x64x2x2_S262144x256 : S16x128x128x64x2x2.ShapeCasts S262144x256
  transposes_S512x256_S256x512_1_0 : S512x256.Transposes [1, 0] S256x512
  bcast_S512_S1x512_1 : S512.BroadcastsInDim S1x512 (![1] : Fin 1 → Fin S1x512.rank)
  bcast_S1x512_S262144x512_0_1 : S1x512.BroadcastsInDim S262144x512 (![0, 1] : Fin 2 → Fin S262144x512.rank)
  bcast_S_S262144x512 : S_.BroadcastsInDim S262144x512 (![] : Fin 0 → Fin S262144x512.rank)
  transposes_S128x512_S512x128_1_0 : S128x512.Transposes [1, 0] S512x128
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  shapeCasts_S262144x128_S16x128x128x128 : S262144x128.ShapeCasts S16x128x128x128
  transposes_S16x128x128x128_S16x128x128x128_0_3_1_2 : S16x128x128x128.Transposes [0, 3, 1, 2] S16x128x128x128
  reducesTo_S16x64x128x2x128x2_S16x64x128x128_d3_5 : S16x64x128x2x128x2.ReducesTo [3, 5] S16x64x128x128
  h_S_ : 0 < S_.numel
  bcast_S_S16x64x128x128 : S_.BroadcastsInDim S16x64x128x128 (![] : Fin 0 → Fin S16x64x128x128.rank)
  bcast_S16x64x128x128_S16x64x2x128x128_0_1_3_4 : S16x64x128x128.BroadcastsInDim S16x64x2x128x128 (![0, 1, 3, 4] : Fin 4 → Fin S16x64x2x128x128.rank)
  shapeCasts_S16x64x2x128x128_S16x128x128x128 : S16x64x2x128x128.ShapeCasts S16x128x128x128
  dot_S262144x256_S256x512_S262144x512_1_0_0_1_n_n_wf : DotDims.WF S262144x256 S256x512 S262144x512 [1] [0] [0] [1] [] []
  dot_S262144x512_S512x128_S262144x128_1_0_0_1_n_n_wf : DotDims.WF S262144x512 S512x128 S262144x128 [1] [0] [0] [1] [] []

variable [Facts₀]

def dot_S262144x256_S256x512_S262144x512_1_0_0_1_n_n : DotDims S262144x256 S256x512 S262144x512 where
  lhsContracting := [1]
  rhsContracting := [0]
  lhsNonContracting := [0]
  rhsNonContracting := [1]
  lhsBatch := []
  rhsBatch := []
  wf := dot_S262144x256_S256x512_S262144x512_1_0_0_1_n_n_wf
def dot_S262144x512_S512x128_S262144x128_1_0_0_1_n_n : DotDims S262144x512 S512x128 S262144x128 where
  lhsContracting := [1]
  rhsContracting := [0]
  lhsNonContracting := [0]
  rhsNonContracting := [1]
  lhsBatch := []
  rhsBatch := []
  wf := dot_S262144x512_S512x128_S262144x128_1_0_0_1_n_n_wf

class Facts : Prop extends Facts₀ where

variable [Facts]
-- ==== Proof.PatchMlp.lean ====
/-
  The mathematics both programs compute, on the extended reals.

  A patch matrix `p` with 256 columns (one row per 2×2 spatial patch, its 64 channels × 4 pixels laid out along the
  row) goes through a two-layer perceptron: a hidden layer of 512 units, `z = p · W₁ + b₁`, the SiLU activation
  `z · σ(z)` with `σ(z) = 1 / (1 + e^(-z))` the logistic function, and an output layer of 128 units,
  `silu(z) · W₂ + b₂`. The weight matrices are taken as they are multiplied: `W₁` of shape [256, 512] and `W₂` of
  shape [512, 128].

  Row `r` of the result depends on `p` only through row `r` of `p`: that is what lets a block of rows be computed
  from the same block of rows of `p`, and the whole array be read off its blocks.
-/
import Idealize.ShloMosaic.PureOps.Ideal
import Idealize.ShloMosaic.Lib.ValueIdx

noncomputable section

open scoped BigOperators

namespace Cert.PatchMlp

open Idealize.ShloMosaic Idealize.ShloMosaic.ValueIdx

/-- SiLU on the extended reals: `z · σ(z)`, with `σ` the logistic function `1 / (1 + e^(-z))`. -/
def silu (z : EReal) : EReal := z * Ideal.logistic z

/-- The hidden layer before its activation, for row `r` and hidden unit `h`: the dot product of row `r` of `p`
    with column `h` of the first weight matrix, plus the first bias at `h`. -/
def hidden {n : Nat} (p : (⟨2, ![n, 256]⟩ : Shape).Idx → EReal) (w1 : (⟨2, ![256, 512]⟩ : Shape).Idx → EReal)
    (b1 : (⟨1, ![512]⟩ : Shape).Idx → EReal) (r : Fin n) (h : Fin 512) : EReal :=
  (∑ k : Fin 256, p (ix2 r k) * w1 (ix2 k h)) + b1 (ix1 h)

/-- The perceptron's output for row `r` and output unit `o`: the dot product of the activated hidden row with
    column `o` of the second weight matrix, plus the second bias at `o`. -/
def mlp {n : Nat} (p : (⟨2, ![n, 256]⟩ : Shape).Idx → EReal) (w1 : (⟨2, ![256, 512]⟩ : Shape).Idx → EReal)
    (b1 : (⟨1, ![512]⟩ : Shape).Idx → EReal) (w2 : (⟨2, ![512, 128]⟩ : Shape).Idx → EReal)
    (b2 : (⟨1, ![128]⟩ : Shape).Idx → EReal) (r : Fin n) (o : Fin 128) : EReal :=
  (∑ h : Fin 512, silu (hidden p w1 b1 r h) * w2 (ix2 h o)) + b2 (ix1 o)

/-- The output of a row depends on the patch matrix only through that row: two patch matrices (of any two
    heights) that agree on rows `r` and `r'` give the same output there. -/
theorem mlp_congr_row {n n' : Nat} (p : (⟨2, ![n, 256]⟩ : Shape).Idx → EReal) (p' : (⟨2, ![n', 256]⟩ : Shape).Idx → EReal)
    (w1 : (⟨2, ![256, 512]⟩ : Shape).Idx → EReal) (b1 : (⟨1, ![512]⟩ : Shape).Idx → EReal)
    (w2 : (⟨2, ![512, 128]⟩ : Shape).Idx → EReal) (b2 : (⟨1, ![128]⟩ : Shape).Idx → EReal)
    (r : Fin n) (r' : Fin n') (hp : ∀ k : Fin 256, p (ix2 r k) = p' (ix2 r' k)) (o : Fin 128) :
    mlp p w1 b1 w2 b2 r o = mlp p' w1 b1 w2 b2 r' o := by
  unfold mlp hidden
  simp only [hp]

/-- The whole result array, 262144 rows by 128 output units, as one function of the patch matrix, the two weight
    matrices and the two biases. -/
def rows (p : (⟨2, ![262144, 256]⟩ : Shape).Idx → EReal) (w1 : (⟨2, ![256, 512]⟩ : Shape).Idx → EReal)
    (b1 : (⟨1, ![512]⟩ : Shape).Idx → EReal) (w2 : (⟨2, ![512, 128]⟩ : Shape).Idx → EReal)
    (b2 : (⟨1, ![128]⟩ : Shape).Idx → EReal) : (⟨2, ![262144, 128]⟩ : Shape).Idx → EReal :=
  fun i => mlp p w1 b1 w2 b2 (i 0) (i 1)

end Cert.PatchMlp

end
-- ==== Proof.Payload.lean ====
/-
  What one grid point's body computes, read at an index of its output block.

  The body loads a block of 4096 rows of the patch matrix, the two weight matrices (already transposed to the
  orientation in which they are multiplied, and narrowed to a shorter float format, which is the identity on the
  extended reals) and the two biases; multiplies the rows by the first weights into a zero accumulator, adds the first bias along
  every row, applies `z · σ(z)`, multiplies by the second weights into a zero accumulator and adds the second bias along every
  row. Read at row `a` and output unit `o` this is the two-layer perceptron of `Cert.PatchMlp` on the block: a
  matrix product into a zero accumulator is the plain sum over the contracted axis, and a bias given as a vector, viewed as a
  one-row matrix and repeated down the rows, is read at its column.
-/
import proofs.«104646_j14516989460759_1_alg».proof.Proof.Gen.KernelIdeal.Skeleton
import proofs.«104646_j14516989460759_1_alg».proof.Proof.PatchMlp
import Idealize.ShloMosaic.Lib.Pipeline.Value
import Idealize.ShloMosaic.Lib.ValueIdx
import Idealize.ShloMosaic.PureOps.Ideal.Laws

noncomputable section

open scoped BigOperators

namespace Cert.KernelIdeal.BodyValue

open Cert.KernelIdeal Cert.KernelIdeal.Gen Idealize.ShloMosaic Idealize.ShloMosaic.ValueIdx Cert.PatchMlp

/-! ## The two matrix products as sums

For each product: which coordinate of each operand an output index and a contraction index select (the first
operand is read at (output row, contraction), the second at (contraction, output column)), then the product into a
zero accumulator as the sum over the contracted axis. -/

theorem lhs1_0 (i : S4096x512.Idx) (q : dot_S4096x256_S256x512_S4096x512_1_0_0_1_n_n.contr.Idx) : (dot_S4096x256_S256x512_S4096x512_1_0_0_1_n_n.lhsIdx i q 0).val = (i 0).val := by
  unfold DotDims.lhsIdx
  rw [dif_neg (show ¬(0 : Fin S4096x256.rank) ∈ dot_S4096x256_S256x512_S4096x512_1_0_0_1_n_n.lhsBatch by decide), dif_pos (show (0 : Fin S4096x256.rank) ∈ dot_S4096x256_S256x512_S4096x512_1_0_0_1_n_n.lhsNonContracting by decide)]
  rfl
theorem lhs1_1 (i : S4096x512.Idx) (q : dot_S4096x256_S256x512_S4096x512_1_0_0_1_n_n.contr.Idx) : (dot_S4096x256_S256x512_S4096x512_1_0_0_1_n_n.lhsIdx i q 1).val = (q ⟨0, by decide⟩).val :=
  dot_S4096x256_S256x512_S4096x512_1_0_0_1_n_n.lhsIdx_val_of_single rfl i q
theorem rhs1_0 (i : S4096x512.Idx) (q : dot_S4096x256_S256x512_S4096x512_1_0_0_1_n_n.contr.Idx) : (dot_S4096x256_S256x512_S4096x512_1_0_0_1_n_n.rhsIdx i q 0).val = (q ⟨0, by decide⟩).val :=
  dot_S4096x256_S256x512_S4096x512_1_0_0_1_n_n.rhsIdx_val_of_single rfl i q
theorem rhs1_1 (i : S4096x512.Idx) (q : dot_S4096x256_S256x512_S4096x512_1_0_0_1_n_n.contr.Idx) : (dot_S4096x256_S256x512_S4096x512_1_0_0_1_n_n.rhsIdx i q 1).val = (i 1).val := by
  unfold DotDims.rhsIdx
  rw [dif_neg (show ¬(1 : Fin S256x512.rank) ∈ dot_S4096x256_S256x512_S4096x512_1_0_0_1_n_n.rhsBatch by decide), dif_pos (show (1 : Fin S256x512.rank) ∈ dot_S4096x256_S256x512_S4096x512_1_0_0_1_n_n.rhsNonContracting by decide)]
  rfl

/-- The rows times the first weights, into a zero accumulator: entry `(a, b)` is the sum over the 256 patch columns. -/
theorem hidden_product (l : FVec Ideal S4096x256 .bf16) (r : FVec Ideal S256x512 .bf16) (a : Fin 4096) (b : Fin 512) :
    matmul dot_S4096x256_S256x512_S4096x512_1_0_0_1_n_n none l r (constant S4096x512 .f32 0x00000000#32) (ix2 a b) = ∑ k : Fin 256, l (ix2 a k) * r (ix2 k b) := by
  refine (Ideal.matmul_constant_zero_apply dot_S4096x256_S256x512_S4096x512_1_0_0_1_n_n none l r (ix2 a b)).trans ?_
  rw [← Equiv.sum_comp (contrEquiv1 dot_S4096x256_S256x512_S4096x512_1_0_0_1_n_n 256 rfl rfl).symm]
  refine Finset.sum_congr rfl fun k _ => ?_
  have hk := contrEquiv1_symm_val dot_S4096x256_S256x512_S4096x512_1_0_0_1_n_n 256 rfl rfl k
  have el : dot_S4096x256_S256x512_S4096x512_1_0_0_1_n_n.lhsIdx (ix2 a b) ((contrEquiv1 dot_S4096x256_S256x512_S4096x512_1_0_0_1_n_n 256 rfl rfl).symm k) = ix2 a k := funext fun d => Fin.ext (by
    match d with
    | ⟨0, _⟩ => exact lhs1_0 _ _
    | ⟨1, _⟩ => exact (lhs1_1 _ _).trans hk)
  have er : dot_S4096x256_S256x512_S4096x512_1_0_0_1_n_n.rhsIdx (ix2 a b) ((contrEquiv1 dot_S4096x256_S256x512_S4096x512_1_0_0_1_n_n 256 rfl rfl).symm k) = ix2 k b := funext fun d => Fin.ext (by
    match d with
    | ⟨0, _⟩ => exact (rhs1_0 _ _).trans hk
    | ⟨1, _⟩ => exact rhs1_1 _ _)
  rw [el, er]

theorem lhs2_0 (i : S4096x128.Idx) (q : dot_S4096x512_S512x128_S4096x128_1_0_0_1_n_n.contr.Idx) : (dot_S4096x512_S512x128_S4096x128_1_0_0_1_n_n.lhsIdx i q 0).val = (i 0).val := by
  unfold DotDims.lhsIdx
  rw [dif_neg (show ¬(0 : Fin S4096x512.rank) ∈ dot_S4096x512_S512x128_S4096x128_1_0_0_1_n_n.lhsBatch by decide), dif_pos (show (0 : Fin S4096x512.rank) ∈ dot_S4096x512_S512x128_S4096x128_1_0_0_1_n_n.lhsNonContracting by decide)]
  rfl
theorem lhs2_1 (i : S4096x128.Idx) (q : dot_S4096x512_S512x128_S4096x128_1_0_0_1_n_n.contr.Idx) : (dot_S4096x512_S512x128_S4096x128_1_0_0_1_n_n.lhsIdx i q 1).val = (q ⟨0, by decide⟩).val :=
  dot_S4096x512_S512x128_S4096x128_1_0_0_1_n_n.lhsIdx_val_of_single rfl i q
theorem rhs2_0 (i : S4096x128.Idx) (q : dot_S4096x512_S512x128_S4096x128_1_0_0_1_n_n.contr.Idx) : (dot_S4096x512_S512x128_S4096x128_1_0_0_1_n_n.rhsIdx i q 0).val = (q ⟨0, by decide⟩).val :=
  dot_S4096x512_S512x128_S4096x128_1_0_0_1_n_n.rhsIdx_val_of_single rfl i q
theorem rhs2_1 (i : S4096x128.Idx) (q : dot_S4096x512_S512x128_S4096x128_1_0_0_1_n_n.contr.Idx) : (dot_S4096x512_S512x128_S4096x128_1_0_0_1_n_n.rhsIdx i q 1).val = (i 1).val := by
  unfold DotDims.rhsIdx
  rw [dif_neg (show ¬(1 : Fin S512x128.rank) ∈ dot_S4096x512_S512x128_S4096x128_1_0_0_1_n_n.rhsBatch by decide), dif_pos (show (1 : Fin S512x128.rank) ∈ dot_S4096x512_S512x128_S4096x128_1_0_0_1_n_n.rhsNonContracting by decide)]
  rfl

/-- The activated hidden rows times the second weights, into a zero accumulator: entry `(a, b)` is the sum over the 512 hidden units. -/
theorem output_product (l : FVec Ideal S4096x512 .bf16) (r : FVec Ideal S512x128 .bf16) (a : Fin 4096) (b : Fin 128) :
    matmul dot_S4096x512_S512x128_S4096x128_1_0_0_1_n_n none l r (constant S4096x128 .f32 0x00000000#32) (ix2 a b) = ∑ k : Fin 512, l (ix2 a k) * r (ix2 k b) := by
  refine (Ideal.matmul_constant_zero_apply dot_S4096x512_S512x128_S4096x128_1_0_0_1_n_n none l r (ix2 a b)).trans ?_
  rw [← Equiv.sum_comp (contrEquiv1 dot_S4096x512_S512x128_S4096x128_1_0_0_1_n_n 512 rfl rfl).symm]
  refine Finset.sum_congr rfl fun k _ => ?_
  have hk := contrEquiv1_symm_val dot_S4096x512_S512x128_S4096x128_1_0_0_1_n_n 512 rfl rfl k
  have el : dot_S4096x512_S512x128_S4096x128_1_0_0_1_n_n.lhsIdx (ix2 a b) ((contrEquiv1 dot_S4096x512_S512x128_S4096x128_1_0_0_1_n_n 512 rfl rfl).symm k) = ix2 a k := funext fun d => Fin.ext (by
    match d with
    | ⟨0, _⟩ => exact lhs2_0 _ _
    | ⟨1, _⟩ => exact (lhs2_1 _ _).trans hk)
  have er : dot_S4096x512_S512x128_S4096x128_1_0_0_1_n_n.rhsIdx (ix2 a b) ((contrEquiv1 dot_S4096x512_S512x128_S4096x128_1_0_0_1_n_n 512 rfl rfl).symm k) = ix2 k b := funext fun d => Fin.ext (by
    match d with
    | ⟨0, _⟩ => exact (rhs2_0 _ _).trans hk
    | ⟨1, _⟩ => exact rhs2_1 _ _)
  rw [el, er]

/-! ## The two biases along the rows

A bias vector is viewed as a matrix of one row and that row is repeated down all 4096 rows: at row `a` and
column `b` the result is the vector's entry `b`, whatever the row. -/

/-- The first bias, viewed as one row of 512 and repeated down the 4096 rows, read at `(a, h)`: its entry `h`. -/
theorem first_bias (v : FVec Ideal S512 .f32) (a : Fin 4096) (h : Fin 512) :
    broadcastTo S4096x512 (shapeCast S1x512 v shapeCasts_S512_S1x512) broadcasts_S1x512_S4096x512 (ix2 a h) = v (ix1 h) := by
  refine (broadcastTo_apply _ _ (ix2 a h) (ix2 (0 : Fin 1) h) (fun d => by
    match d with
    | ⟨0, _⟩ => rfl
    | ⟨1, _⟩ => rfl)).trans ?_
  refine (shapeCast_addUnit_apply ![512] v _ _).trans ?_
  exact congrArg v (funext fun d => by match d with | ⟨0, _⟩ => rfl)

/-- The second bias, viewed as one row of 128 and repeated down the 4096 rows, read at `(a, o)`: its entry `o`. -/
theorem second_bias (v : FVec Ideal S128 .f32) (a : Fin 4096) (o : Fin 128) :
    broadcastTo S4096x128 (shapeCast S1x128 v shapeCasts_S128_S1x128) broadcasts_S1x128_S4096x128 (ix2 a o) = v (ix1 o) := by
  refine (broadcastTo_apply _ _ (ix2 a o) (ix2 (0 : Fin 1) o) (fun d => by
    match d with
    | ⟨0, _⟩ => rfl
    | ⟨1, _⟩ => rfl)).trans ?_
  refine (shapeCast_addUnit_apply ![128] v _ _).trans ?_
  exact congrArg v (funext fun d => by match d with | ⟨0, _⟩ => rfl)

/-! ## The body's result at an index -/

/-- The activation's logistic factor is taken lane by lane. -/
theorem logistic_apply {s : Shape} (v : FVec Ideal s .f32) (i : s.Idx) : logistic v i = Ideal.logistic (v i) := rfl

/-- What the body stores, read at row `a` and output unit `o` of its block, is the two-layer perceptron of the
    loaded blocks there: the narrowing of the operands to the shorter float format and the reshapes of a block to its
    own shape are the identity, each product is its sum, each bias is read at its column, and the activation is
    `z · σ(z)` lane by lane. -/
theorem payload_apply (x0 : Vec Ideal S4096x256 .f32) (x1 : Vec Ideal S256x512 .bf16) (x2 : Vec Ideal S512 .f32)
    (x3 : Vec Ideal S512x128 .bf16) (x4 : Vec Ideal S128 .f32) (a : Fin 4096) (o : Fin 128) :
    k0_pay1 (F := Ideal) x0 x1 x2 x3 x4 (ix2 a o) = mlp x0 x1 x2 x3 x4 a o := by
  unfold k0_pay1 mlp
  rw [addf_apply, output_product, second_bias]
  refine congrArg (· + x4 (ix1 o)) (Finset.sum_congr rfl fun h _ => ?_)
  rw [truncf_apply, mulf_apply, logistic_apply]
  simp only [shapeCast_self]
  refine congrArg (· * x3 (ix2 h o)) ?_
  unfold silu PatchMlp.hidden
  rw [addf_apply, hidden_product, first_bias]
  simp only [truncf_apply]

end Cert.KernelIdeal.BodyValue

end
-- ==== Proof.Blocks.lean ====
/-
  From one grid point's block to the whole array.

  The grid has 64 points. Point `t` works on rows `4096·t … 4096·t + 4095`: it reads that block of rows of the
  patch matrix, reads the two weight matrices and the two biases whole (their block is the whole array at every
  point), and writes back that block of rows of the result. So what point `t` writes back is block `t` of ONE
  function of the whole arrays — the two-layer perceptron of `Cert.PatchMlp`, row by row — because a row of
  the result depends on the patch matrix only through the same row. The 64 blocks of 4096 rows tile the 262144
  rows, every point writes its block back, and therefore the array ends holding that function everywhere.
-/
import proofs.«104646_j14516989460759_1_alg».proof.Proof.Gen.KernelIdeal.Frame
import proofs.«104646_j14516989460759_1_alg».proof.Proof.Payload
import Idealize.ShloMosaic.Lib.Pipeline.Value
import Idealize.ShloMosaic.Lib.ValueIdx

set_option maxRecDepth 16384

noncomputable section

open scoped BigOperators

namespace Cert.KernelIdeal.Blocks

open Cert.KernelIdeal Cert.KernelIdeal.Gen Cert.KernelIdeal.BodyValue Idealize.ShloMosaic Idealize.ShloMosaic.TcCoe
open Idealize.ShloMosaic.ValueIdx Idealize.SL.Sem Cert.PatchMlp

variable (m : (ℓ : Loc nD τ sig) → Buf (Elt Ideal) ℓ)

/-! ## The arrays as the region finds them, and the blocks, at their literal types -/

/-- The patch matrix as the region finds it. -/
abbrev patches (c : Dev nD) : Vec Ideal S262144x256 .f32 := V m c main_v2
/-- The first weight matrix as the region finds it, [256, 512]. -/
abbrev weights1 (c : Dev nD) : Vec Ideal S256x512 .bf16 := V m c main_v9
/-- The first bias. -/
abbrev biasv1 (c : Dev nD) : Vec Ideal S512 .f32 := V m c main_arg2
/-- The second weight matrix as the region finds it, [512, 128]. -/
abbrev weights2 (c : Dev nD) : Vec Ideal S512x128 .bf16 := V m c main_v11
/-- The second bias. -/
abbrev biasv2 (c : Dev nD) : Vec Ideal S128 .f32 := V m c main_arg4

/-- Point `t`'s block of the patch matrix. -/
abbrev pblk (c : Dev nD) (t : Fin cfg0.N) : Vec Ideal S4096x256 .f32 := iblk m c 0 t
abbrev w1blk (c : Dev nD) (t : Fin cfg0.N) : Vec Ideal S256x512 .bf16 := iblk m c 1 t
abbrev b1blk (c : Dev nD) (t : Fin cfg0.N) : Vec Ideal S512 .f32 := iblk m c 2 t
abbrev w2blk (c : Dev nD) (t : Fin cfg0.N) : Vec Ideal S512x128 .bf16 := iblk m c 3 t
abbrev b2blk (c : Dev nD) (t : Fin cfg0.N) : Vec Ideal S128 .f32 := iblk m c 4 t

/-- THE WHOLE RESULT ARRAY: the perceptron of the arrays as the region finds them, row by row. -/
def result (c : Dev nD) : Vec Ideal S262144x128 .f32 :=
  rows (patches m c) (weights1 m c) (biasv1 m c) (weights2 m c) (biasv2 m c)

/-! ## The index maps, over the grid -/

theorem hz2 : (![0, 0] : Fin 2 → Nat) = fun _ => 0 := funext fun a => by fin_cases a <;> rfl
theorem hz1 : (![0] : Fin 1 → Nat) = fun _ => 0 := funext fun a => by fin_cases a <;> rfl

/-- Point `t` takes block row `t` of the patch matrix and of the result; the weights and the biases are taken whole at
    every point. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-! ## Each block, read off its array -/

/-- Row `a` of point `t`'s block of the patch matrix is row `4096·t + a` of the patch matrix. -/
theorem pblk_apply (c : Dev nD) (t : Fin cfg0.N) (a : Fin 4096) (k : Fin 256) (r : Fin 262144) (hr : r.val = t.val * 4096 + a.val) :
    pblk m c t (ix2 a k) = patches m c (ix2 r k) := by
  obtain ⟨e0, e1, -⟩ := idx_facts t
  show V m c main_v2 (((cfg0.win 0).blk t).view.emb (ix2 a k)) = V m c main_v2 (ix2 r k)
  refine congrArg (V m c main_v2) (funext fun d => Fin.ext ?_)
  match d with
  | ⟨0, _⟩ => show win0_0.index t (0 : Fin 2) * 4096 + 1 * a.val = r.val; omega
  | ⟨1, _⟩ => show win0_0.index t (1 : Fin 2) * 256 + 1 * k.val = k.val; omega

/-- The first weight matrix's block is the whole matrix at every point. -/
theorem w1blk_eq (c : Dev nD) (t : Fin cfg0.N) : w1blk m c t = weights1 m c := by
  obtain ⟨-, -, e0, e1, -⟩ := idx_facts t
  funext y
  show V m c main_v9 (((cfg0.win 1).blk t).view.emb y) = V m c main_v9 y
  refine congrArg (V m c main_v9) (funext fun d => Fin.ext ?_)
  match d with
  | ⟨0, _⟩ => show win0_1.index t (0 : Fin 2) * 256 + 1 * (y 0).val = (y 0).val; omega
  | ⟨1, _⟩ => show win0_1.index t (1 : Fin 2) * 512 + 1 * (y 1).val = (y 1).val; omega

/-- The first bias's block is the whole vector at every point. -/
theorem b1blk_eq (c : Dev nD) (t : Fin cfg0.N) : b1blk m c t = biasv1 m c := by
  obtain ⟨-, -, -, -, e0, -⟩ := idx_facts t
  funext y
  show V m c main_arg2 (((cfg0.win 2).blk t).view.emb y) = V m c main_arg2 y
  refine congrArg (V m c main_arg2) (funext fun d => Fin.ext ?_)
  match d with
  | ⟨0, _⟩ => show win0_2.index t (0 : Fin 1) * 512 + 1 * (y 0).val = (y 0).val; omega

/-- The second weight matrix's block is the whole matrix at every point. -/
theorem w2blk_eq (c : Dev nD) (t : Fin cfg0.N) : w2blk m c t = weights2 m c := by
  obtain ⟨-, -, -, -, -, e0, e1, -⟩ := idx_facts t
  funext y
  show V m c main_v11 (((cfg0.win 3).blk t).view.emb y) = V m c main_v11 y
  refine congrArg (V m c main_v11) (funext fun d => Fin.ext ?_)
  match d with
  | ⟨0, _⟩ => show win0_3.index t (0 : Fin 2) * 512 + 1 * (y 0).val = (y 0).val; omega
  | ⟨1, _⟩ => show win0_3.index t (1 : Fin 2) * 128 + 1 * (y 1).val = (y 1).val; omega

/-- The second bias's block is the whole vector at every point. -/
theorem b2blk_eq (c : Dev nD) (t : Fin cfg0.N) : b2blk m c t = biasv2 m c := by
  obtain ⟨-, -, -, -, -, -, -, e0, -⟩ := idx_facts t
  funext y
  show V m c main_arg4 (((cfg0.win 4).blk t).view.emb y) = V m c main_arg4 y
  refine congrArg (V m c main_arg4) (funext fun d => Fin.ext ?_)
  match d with
  | ⟨0, _⟩ => show win0_4.index t (0 : Fin 1) * 128 + 1 * (y 0).val = (y 0).val; omega

/-! ## What a point writes back -/

/-- WHAT POINT `t` WRITES BACK is block `t` of the whole result array. -/
theorem flushed_eq (c : Dev nD) (t : Fin cfg0.N) :
    (dats m 0 c).flushed 5 t = ((cfg0.win 5).blk t).view.read (Elt Ideal) (result m c) := by
  show (cfg0.win 5).cut (grid0.coords t) ((dats m 0 c).after 5 t) = _
  rw [after0_5]
  unfold out0_5
  rw [View.canon_unit_zero hz2]
  simp only [View.ld_unit_zero (S := S4096x256) hz2, View.ld_unit_zero (S := S256x512) hz2, View.ld_unit_zero (S := S512) hz1,
    View.ld_unit_zero (S := S512x128) hz2, View.ld_unit_zero (S := S128) hz1]
  obtain ⟨-, -, -, -, -, -, -, -, e0, e1⟩ := idx_facts t
  funext j
  obtain ⟨a, o, rfl⟩ : ∃ (a : Fin 4096) (o : Fin 128), j = ix2 a o := ⟨j 0, j 1, eq_ix2 j⟩
  have ht : t.val < 64 := lt_of_lt_of_eq t.isLt N_0
  have hr : t.val * 4096 + a.val < 262144 := by have := a.isLt; omega
  show k0_pay1 (F := Ideal) (pblk m c t) (w1blk m c t) (b1blk m c t) (w2blk m c t) (b2blk m c t) (ix2 a o)
    = result m c (((cfg0.win 5).blk t).view.emb (ix2 a o))
  refine (payload_apply (pblk m c t) (w1blk m c t) (b1blk m c t) (w2blk m c t) (b2blk m c t) a o).trans ?_
  rw [w1blk_eq, b1blk_eq, w2blk_eq, b2blk_eq]
  have hemb : ((cfg0.win 5).blk t).view.emb (ix2 a o) = ix2 (⟨t.val * 4096 + a.val, hr⟩ : Fin 262144) o := funext fun d => Fin.ext (by
    match d with
    | ⟨0, _⟩ => show win0_5.index t (0 : Fin 2) * 4096 + 1 * a.val = t.val * 4096 + a.val; omega
    | ⟨1, _⟩ => show win0_5.index t (1 : Fin 2) * 128 + 1 * o.val = o.val; omega)
  rw [hemb]
  show mlp (pblk m c t) (weights1 m c) (biasv1 m c) (weights2 m c) (biasv2 m c) a o
    = mlp (patches m c) (weights1 m c) (biasv1 m c) (weights2 m c) (biasv2 m c) (⟨t.val * 4096 + a.val, hr⟩ : Fin 262144) o
  exact mlp_congr_row (pblk m c t) (patches m c) (weights1 m c) (biasv1 m c) (weights2 m c) (biasv2 m c) a ⟨t.val * 4096 + a.val, hr⟩
    (fun k => pblk_apply m c t a k ⟨t.val * 4096 + a.val, hr⟩ rfl) o

/-! ## The blocks tile the array -/

/-- An index of the result array is in point `t`'s block iff each coordinate is in the block's range on its axis. -/
theorem mem_blk (t : Fin cfg0.N) (i : S262144x128.Idx) :
    i ∈ ((cfg0.win 5).blk t).view.set ↔ ∀ a : Fin 2, win0_5.index t a * S4096x128.size a ≤ (i a).val ∧ (i a).val < win0_5.index t a * S4096x128.size a + S4096x128.size a := by
  show i ∈ ((View.whole main_v12).slice (win0_5.rect t)).set ↔ _
  rw [View.set_slice_whole, Rect.mem_set_unit]
  exact Iff.rfl

/-- Every index of the result array is in the block of the point its row falls in: row `r` belongs to point `r / 4096`. -/
theorem covered (i : S262144x128.Idx) : ∃ t : Fin cfg0.N, (cfg0.win 5).flush t = true ∧ i ∈ ((cfg0.win 5).blk t).view.set := by
  have hi0 : (i 0).val < 262144 := idx2_lt0 i
  have hi1 : (i 1).val < 128 := (i 1).isLt
  have hN : (i 0).val / 4096 < cfg0.N := lt_of_lt_of_eq (by omega : (i 0).val / 4096 < 64) N_0.symm
  refine ⟨⟨(i 0).val / 4096, hN⟩, flush0_5 _, ?_⟩
  obtain ⟨-, -, -, -, -, -, -, -, e0, e1⟩ := idx_facts ⟨(i 0).val / 4096, hN⟩
  rw [mem_blk]
  intro a
  match a with
  | ⟨0, _⟩ => show win0_5.index ⟨(i 0).val / 4096, hN⟩ (0 : Fin 2) * 4096 ≤ (i 0).val ∧ (i 0).val < win0_5.index ⟨(i 0).val / 4096, hN⟩ (0 : Fin 2) * 4096 + 4096
              rw [e0]; show (i 0).val / 4096 * 4096 ≤ (i 0).val ∧ (i 0).val < (i 0).val / 4096 * 4096 + 4096; omega
  | ⟨1, _⟩ => show win0_5.index ⟨(i 0).val / 4096, hN⟩ (1 : Fin 2) * 128 ≤ (i 1).val ∧ (i 1).val < win0_5.index ⟨(i 0).val / 4096, hN⟩ (1 : Fin 2) * 128 + 128
              rw [e1]; omega

/-- THE ARRAY AFTER THE RUN: the result window's array ends holding the whole result function. -/
theorem final (c : Dev nD) : (dats m 0 c).arrAt 5 cfg0.N = result m c :=
  (dats m 0 c).arrAt_eq_of_cover 5 (result m c) (fun t _ => flushed_eq m c t) covered

end Cert.KernelIdeal.Blocks

end
-- ==== Proof.KernelRun.lean ====
/-
  The kernel's result, through the operations after the region.

  After the region the program reshapes the 262144 × 128 array to [16, 128, 128, 128] (batch, patch row, patch
  column, output unit), moves the output unit to the second axis, and adds the pooled residual. The array it
  reshapes is the result window's array, which the region leaves holding the perceptron of the arrays it found,
  row by row (`Cert.KernelIdeal.Blocks.final`); the residual is what the operations before the region made of
  the input, untouched by the region.

  The arrays the region finds are themselves the reference's own stages of the arguments: the same patch matrix,
  the same transposed weights (the narrowing to a shorter float format is the identity on the extended reals) and the same
  pooled residual, each spelt by the same operations on the same argument in both programs.
-/
import proofs.«104646_j14516989460759_1_alg».proof.Proof.Gen.KernelIdeal.Frame
import proofs.«104646_j14516989460759_1_alg».proof.Proof.Gen.ReferenceIdeal.Read
import proofs.«104646_j14516989460759_1_alg».proof.Proof.Blocks
import Idealize.ShloMosaic.Lib.StableHlo.Run
import Idealize.ShloMosaic.Lib.Pipeline.FrameSuffix

set_option maxRecDepth 16384

noncomputable section

namespace Cert.KernelIdeal.RunValue

open Cert.KernelIdeal Cert.KernelIdeal.Gen Cert.KernelIdeal.Blocks Idealize.ShloMosaic Idealize.ShloMosaic.TcCoe
open Idealize.SL.Sem Idealize.ShloMosaic.StableHlo Cert.PatchMlp

variable (m : (ℓ : Loc nD τ sig) → Buf (Elt Ideal) ℓ)

/-- The ending both programs share: the rows regrouped by batch, patch row and patch column, the output unit
    moved in front of the two patch coordinates, and the residual added. -/
def tail (k : FVec Ideal S262144x128 .f32) (res : FVec Ideal S16x128x128x128 .f32) : FVec Ideal S16x128x128x128 .f32 :=
  addf (transpose S16x128x128x128 [0, 3, 1, 2] (shapeCast S16x128x128x128 k shapeCasts_S262144x128_S16x128x128x128)
    transposes_S16x128x128x128_S16x128x128x128_0_3_1_2) res

/-- THE RESULT BUFFER after the run: the shared ending applied to the perceptron of the arrays the region found and
    to the residual the operations before the region computed. -/
theorem result_buffer (c : Dev nD) :
    Pipeline.afterTail₀ cfgs (dats m) 0 (V0 m) [hostOps1] c main_v15 = tail (result m c) (V m c main_v7) := by
  unfold Pipeline.afterTail₀
  show StableHlo.after hostOps1 _ (Proc.devRef .tc main_v15) = _
  after_results
  have h12 : Pipeline.withArrays (cfgs 0).spec c (V0 m c) (fun w => (dats m 0 c).arrAt w (cfgs 0).N) (Proc.devRef .tc main_v12)
      = result m c :=
    (Pipeline.withArrays_arr spec0 launch0.win.arr_inj c _ _ 5).trans (final m c)
  have h7 : Pipeline.withArrays (cfgs 0).spec c (V0 m c) (fun w => (dats m 0 c).arrAt w (cfgs 0).N) (Proc.devRef .tc main_v7)
      = V m c main_v7 :=
    Pipeline.withArrays_of_ne spec0 c _ _ main_v7 (by decide)
  rw [h12, h7]
  rfl

/-! ## The arrays the region finds are the reference's stages of the arguments -/

/-- The patch matrix: the input regrouped into 2 × 2 patches, the patch coordinates moved in front of the channel,
    and flattened to one row per patch. -/
theorem patches_eq (c : Dev nD) :
    patches m c = Cert.ReferenceIdeal.Read.val_main_v2 (F := Ideal) (m ((c : Thread nD τ).loc main_arg0)) := by
  show StableHlo.after hostOps0 (fun b => m (c, b)) (Proc.devRef .tc main_v2) = _
  after_results
  rfl

/-- The first weights as multiplied: transposed to [256, 512]; narrowing the float format changes nothing. -/
theorem weights1_eq (c : Dev nD) :
    weights1 m c = Cert.ReferenceIdeal.Read.val_main_v3 (F := Ideal) (m ((c : Thread nD τ).loc main_arg1)) := by
  show StableHlo.after hostOps0 (fun b => m (c, b)) (Proc.devRef .tc main_v9) = _
  after_results
  rfl

/-- The second weights as multiplied: transposed to [512, 128]; narrowing the float format changes nothing. -/
theorem weights2_eq (c : Dev nD) :
    weights2 m c = Cert.ReferenceIdeal.Read.val_main_v15 (F := Ideal) (m ((c : Thread nD τ).loc main_arg3)) := by
  show StableHlo.after hostOps0 (fun b => m (c, b)) (Proc.devRef .tc main_v11) = _
  after_results
  rfl

/-- The pooled residual: the mean of each 2 × 2 patch per channel, each channel repeated twice. -/
theorem residual_eq (c : Dev nD) :
    (V m c main_v7 : S16x128x128x128.Idx → EReal)
      = Cert.ReferenceIdeal.Read.val_main_v27 (F := Ideal) (m ((c : Thread nD τ).loc main_arg0)) := by
  show StableHlo.after hostOps0 (fun b => m (c, b)) (Proc.devRef .tc main_v7) = _
  after_results
  rfl

/-! ## The run, read -/

/-- THE VALUE BOTH PROGRAMS END AT, as one function of the five arguments: the perceptron of the patch matrix of
    the input, the transposed weights and the biases, row by row, then the shared ending with the pooled residual
    of the input. -/
def answer (x0 : (⟨S16x64x256x256, .f32⟩ : BufTy).Contents (Elt Ideal)) (x1 : (⟨S512x256, .f32⟩ : BufTy).Contents (Elt Ideal))
    (x2 : (⟨S512, .f32⟩ : BufTy).Contents (Elt Ideal)) (x3 : (⟨S128x512, .f32⟩ : BufTy).Contents (Elt Ideal))
    (x4 : (⟨S128, .f32⟩ : BufTy).Contents (Elt Ideal)) : FVec Ideal S16x128x128x128 .f32 :=
  tail (rows (Cert.ReferenceIdeal.Read.val_main_v2 (F := Ideal) x0) (Cert.ReferenceIdeal.Read.val_main_v3 (F := Ideal) x1) x2
      (Cert.ReferenceIdeal.Read.val_main_v15 (F := Ideal) x3) x4)
    (Cert.ReferenceIdeal.Read.val_main_v27 (F := Ideal) x0)

/-- The region's result array as a function of the arguments. -/
theorem result_eq (c : Dev nD) :
    result m c = rows (Cert.ReferenceIdeal.Read.val_main_v2 (F := Ideal) (m ((c.tc : Thread nD τ).loc main_arg0)))
      (Cert.ReferenceIdeal.Read.val_main_v3 (F := Ideal) (m ((c.tc : Thread nD τ).loc main_arg1))) (m ((c.tc : Thread nD τ).loc main_arg2))
      (Cert.ReferenceIdeal.Read.val_main_v15 (F := Ideal) (m ((c.tc : Thread nD τ).loc main_arg3))) (m ((c.tc : Thread nD τ).loc main_arg4)) := by
  unfold result
  rw [patches_eq, weights1_eq, weights2_eq]
  show rows _ _ (V m c main_arg2) _ (V m c main_arg4) = _
  rw [V_main_arg2, V_main_arg4]

/-- THE KERNEL'S RUN: every weakly fair execution terminates with the result buffer at `answer` of the arguments
    and the arguments unchanged. The result is read off the frame run's post through the operations after the
    region; an argument the region stages is kept because its window is an input, any other because nothing
    writes it. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v15) = answer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨((h c).2 main_v15 (Pipeline.mem_restRefs_of main_v15 (by decide) (by decide))).trans
        ((result_buffer m c).trans (by rw [result_eq, residual_eq]; rfl)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c)))⟩)
    (run_main m ρ)

end Cert.KernelIdeal.RunValue

end
-- ==== Proof.RefRows.lean ====
/-
  The reference's result before its final reshape and transpose, as the same two-layer perceptron.

  The reference multiplies the whole patch matrix by the transposed first weights (one contraction over the 256
  patch columns), adds the first bias along the rows, forms `z · (1 / (1 + e^(-z)))` out of a negation, an
  exponential, a sum with the constant one and a quotient of the constant one, multiplies by the transposed
  second weights (one contraction over the 512 hidden units) and adds the second bias along the rows. The
  quotient `1 / (1 + e^(-z))` is the logistic function by definition, the constant's bit pattern is the number
  one, and each contraction read at an index is the plain sum: so at row `r` and output unit `o` the reference's array is
  the perceptron of `Cert.PatchMlp` applied to the patch matrix, the transposed weights and the biases.
-/
import proofs.«104646_j14516989460759_1_alg».proof.Proof.Gen.ReferenceIdeal.Read
import proofs.«104646_j14516989460759_1_alg».proof.Proof.PatchMlp
import Idealize.ShloMosaic.Lib.ValueIdx
import Idealize.ShloMosaic.Lib.IdealHost

noncomputable section

open scoped BigOperators

namespace Cert.ReferenceIdeal.RefValue

open Cert.ReferenceIdeal Cert.ReferenceIdeal.Gen Cert.ReferenceIdeal.Read Idealize.ShloMosaic Idealize.ShloMosaic.ValueIdx Cert.PatchMlp

variable (x0 : (⟨S16x64x256x256, .f32⟩ : BufTy).Contents (Elt Ideal)) (x1 : (⟨S512x256, .f32⟩ : BufTy).Contents (Elt Ideal))
  (x2 : (⟨S512, .f32⟩ : BufTy).Contents (Elt Ideal)) (x3 : (⟨S128x512, .f32⟩ : BufTy).Contents (Elt Ideal))
  (x4 : (⟨S128, .f32⟩ : BufTy).Contents (Elt Ideal))

/-- The hidden layer before its activation, at row `r` and hidden unit `h`: the row of the patch matrix against
    column `h` of the transposed first weights, plus the first bias at `h`. -/
theorem pre_apply (r : Fin 262144) (h : Fin 512) :
    val_main_v7 (F := Ideal) x0 x1 x2 (ix2 r h)
      = PatchMlp.hidden (val_main_v2 (F := Ideal) x0) (val_main_v3 (F := Ideal) x1) x2 r h := by
  have el : ∀ k : Fin 256, lidx_main_v4 (ix2 r h) k = ix2 r k := fun k => funext fun a => Fin.ext (by
    match a with | ⟨0, _⟩ => rfl | ⟨1, _⟩ => rfl)
  have er : ∀ k : Fin 256, ridx_main_v4 (ix2 r h) k = ix2 k h := fun k => funext fun a => Fin.ext (by
    match a with | ⟨0, _⟩ => rfl | ⟨1, _⟩ => rfl)
  have eb : idx_main_v5 (idx_main_v6 (ix2 r h)) = ix1 h := funext fun a => Fin.ext (by match a with | ⟨0, _⟩ => rfl)
  rw [val_main_v7_apply, val_main_v4_apply, val_main_v6_apply, val_main_v5_apply]
  simp only [el, er, eb]
  rfl

/-- The activated hidden layer at any index: `z · σ(z)` of the value before activation. The reference spells
    `σ(z)` as the constant one divided by one plus the exponential of `-z`, which is the logistic function's definition. -/
theorem act_apply (j : S262144x512.Idx) :
    val_main_v14 (F := Ideal) x0 x1 x2 j = silu (val_main_v7 (F := Ideal) x0 x1 x2 j) := by
  rw [val_main_v14_apply, val_main_v13_apply, val_main_v12_apply, val_main_cst_0_apply, val_main_v11_apply, val_main_v10_apply,
    val_main_cst_apply, val_main_v9_apply, val_main_v8_apply]
  generalize val_main_v7 (F := Ideal) x0 x1 x2 j = z
  simp only [Ideal.ofBits_def, Ideal.ofBits_one_f32]
  rfl

/-- THE REFERENCE'S ARRAY of 262144 rows by 128 output units is the perceptron, row by row. -/
theorem rows_eq :
    val_main_v19 (F := Ideal) x0 x1 x2 x3 x4
      = rows (val_main_v2 (F := Ideal) x0) (val_main_v3 (F := Ideal) x1) x2 (val_main_v15 (F := Ideal) x3) x4 := by
  funext i
  obtain ⟨r, o, rfl⟩ : ∃ (r : Fin 262144) (o : Fin 128), i = ix2 r o := ⟨i 0, i 1, eq_ix2 i⟩
  have el : ∀ h : Fin 512, lidx_main_v16 (ix2 r o) h = ix2 r h := fun h => funext fun a => Fin.ext (by
    match a with | ⟨0, _⟩ => rfl | ⟨1, _⟩ => rfl)
  have er : ∀ h : Fin 512, ridx_main_v16 (ix2 r o) h = ix2 h o := fun h => funext fun a => Fin.ext (by
    match a with | ⟨0, _⟩ => rfl | ⟨1, _⟩ => rfl)
  have eb : idx_main_v17 (idx_main_v18 (ix2 r o)) = ix1 o := funext fun a => Fin.ext (by match a with | ⟨0, _⟩ => rfl)
  rw [val_main_v19_apply, val_main_v16_apply, val_main_v18_apply, val_main_v17_apply]
  simp only [el, er, eb, act_apply, pre_apply]
  rfl

end Cert.ReferenceIdeal.RefValue

end
-- ==== Proof.lean ====
/-
  The certificate: a 2 × 2 patch embedding through a two-layer perceptron, with a pooled residual.

  Both programs cut the input [16, 64, 256, 256] into 2 × 2 spatial patches, lay each patch's 64 channels × 4 pixels
  along a row of a patch matrix of 262144 rows by 256 columns, and send every row through a hidden layer of 512
  units, the activation `z · σ(z)` with `σ` the logistic function, and an output layer of 128 units; the rows are then
  regrouped to [16, 128, 128, 128] with the output unit as the second axis, and the mean of each patch per
  channel, each channel repeated twice, is added.

  The kernel computes the perceptron 4096 rows at a grid point, 64 points in all, with its matrix products into a
  zero accumulator, its operands narrowed to a shorter float format (the identity on the extended reals) and the logistic
  function as one operation; the reference computes it on the whole patch matrix with `1 / (1 + e^(-z))` spelt
  out, which is the logistic function's definition. A row of the result depends on the patch matrix only through the same
  row, so the kernel's 64 blocks are the blocks of the reference's one array, and they tile it
  (Proof/Blocks.lean). Every sum is taken over the same index set with the same terms on both sides, so no law beyond the
  definitions is needed and the inputs' finiteness is never used.

  Proof/PatchMlp.lean states the perceptron; Proof/Payload.lean reads the kernel body's result at an index;
  Proof/Blocks.lean goes from the blocks to the array; Proof/KernelRun.lean carries it through the operations
  after the region and names the kernel's run; Proof/RefRows.lean reads the reference's array.
-/
import proofs.«104646_j14516989460759_1_alg».proof.Defs
import proofs.«104646_j14516989460759_1_alg».proof.Proof.Gen.Kernel
import proofs.«104646_j14516989460759_1_alg».proof.Proof.Gen.Kernel.Frame
import proofs.«104646_j14516989460759_1_alg».proof.Proof.Gen.KernelIdeal
import proofs.«104646_j14516989460759_1_alg».proof.Proof.Gen.KernelIdeal.Frame
import proofs.«104646_j14516989460759_1_alg».proof.Proof.Gen.ReferenceIdeal
import proofs.«104646_j14516989460759_1_alg».proof.Proof.Gen.ReferenceIdeal.Run
import proofs.«104646_j14516989460759_1_alg».proof.Proof.Gen.ReferenceIdeal.Read
import proofs.«104646_j14516989460759_1_alg».proof.Proof.Gen.Pre_finite_inputs
import proofs.«104646_j14516989460759_1_alg».proof.Proof.KernelRun
import proofs.«104646_j14516989460759_1_alg».proof.Proof.RefRows
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- The idealized kernel runs and keeps its arguments. -/
theorem frame_kernel_ideal : Cert.frame_KernelIdeal := fun m ρ _ => Cert.KernelIdeal.Gen.frame m ρ

/-- The idealized reference runs and keeps its arguments: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The reference's result is the shared ending applied to its array of rows and its pooled residual, and its array of
    rows is the perceptron: the same function of the arguments the kernel ends at. -/
theorem reference_answer (x0 : (⟨Cert.ReferenceIdeal.S16x64x256x256, .f32⟩ : BufTy).Contents (Elt Ideal))
    (x1 : (⟨Cert.ReferenceIdeal.S512x256, .f32⟩ : BufTy).Contents (Elt Ideal))
    (x2 : (⟨Cert.ReferenceIdeal.S512, .f32⟩ : BufTy).Contents (Elt Ideal))
    (x3 : (⟨Cert.ReferenceIdeal.S128x512, .f32⟩ : BufTy).Contents (Elt Ideal))
    (x4 : (⟨Cert.ReferenceIdeal.S128, .f32⟩ : BufTy).Contents (Elt Ideal)) :
    Cert.ReferenceIdeal.Read.val_main_v28 (F := Ideal) x0 x1 x2 x3 x4 = Cert.KernelIdeal.RunValue.answer x0 x1 x2 x3 x4 := by
  unfold Cert.KernelIdeal.RunValue.answer
  rw [← Cert.ReferenceIdeal.RefValue.rows_eq]
  rfl

/-- From memories agreeing on the arguments both idealized programs run, keep their arguments, and end with the same
    result: `answer` of the arguments. -/
theorem algebraic : Cert.algebraic_KernelIdeal_ReferenceIdeal := by
  intro m ρ m' ρ' _ hagree
  refine ⟨_, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, (hagree c).1, (hagree c).2.1, (hagree c).2.2.1, (hagree c).2.2.2.1, (hagree c).2.2.2.2]
  exact reference_answer _ _ _ _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
